-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S8x2048x1024 : Shape := ⟨3, ![8, 2048, 1024]⟩
abbrev S8x1024x2048 : Shape := ⟨3, ![8, 1024, 2048]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S8x2048x1024 : S_.BroadcastsInDim S8x2048x1024 (![] : Fin 0 → Fin S8x2048x1024.rank)
  reducesTo_S8x2048x1024_S_d0_1_2 : S8x2048x1024.ReducesTo [0, 1, 2] S_
  bcast_S_S8x1024x2048 : S_.BroadcastsInDim S8x1024x2048 (![] : Fin 0 → Fin S8x1024x2048.rank)
  reducesTo_S8x1024x2048_S_d0_1_2 : S8x1024x2048.ReducesTo [0, 1, 2] S_

variable [Facts]

def fn_part1 {F : FTy → Type} [FloatOps F] (main_v13 : IVec S_ 1) (main_v16 : IVec S8x2048x1024 1) : IVec S_ 1 :=
  let main_c_5 : IVec S_ 1 := constantI S_ 1 1#1
  let main_v17 : IVec S_ 1 := (fun x v => Host.reduce IntOp.andi x v reducesTo_S8x2048x1024_S_d0_1_2 h_S_) main_v16 main_c_5
  let main_v18 : IVec S_ 1 := andi main_v13 main_v17
  main_v18

def fn {F : FTy → Type} [FloatOps F] (main_arg0 : FVec F S8x4096x2048 .f32) (main_arg1 : FVec F S8x2048x1024 .f32) (main_arg2 : FVec F S8x1024x2048 .f32) (main_arg3 : FVec F S8x2048x1024 .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x1024x2048 .f32 := Host.absf main_arg2
  let main_cst_2 : FVec F S_ .f32 := constant S_ .f32 0x7F800000#32
  let main_v10 : FVec F S8x1024x2048 .f32 := broadcastInDim S8x1024x2048 ![] bcast_S_S8x1024x2048 main_cst_2
  let main_v11 : IVec S8x1024x2048 1 := cmpf .olt main_v9 main_v10
  let main_c_3 : IVec S_ 1 := constantI S_ 1 1#1
  let main_v12 : IVec S_ 1 := (fun x v => Host.reduce IntOp.andi x v reducesTo_S8x1024x2048_S_d0_1_2 h_S_) main_v11 main_c_3
  let main_v13 : IVec S_ 1 := andi main_v8 main_v12
  let main_v14 : FVec F S8x2048x1024 .f32 := Host.absf main_arg3
  let main_cst_4 : FVec F S_ .f32 := constant S_ .f32 0x7F800000#32
  let main_v15 : FVec F S8x2048x1024 .f32 := broadcastInDim S8x2048x1024 ![] bcast_S_S8x2048x1024 main_cst_4
  let main_v16 : IVec S8x2048x1024 1 := cmpf .olt main_v14 main_v15
  fn_part1 (F := F) main_v13 main_v16
-- ==== Kernel.lean ====
abbrev S8x4096x2048 : Shape := ⟨3, ![8, 4096, 2048]⟩
abbrev S8x2048x1024 : Shape := ⟨3, ![8, 2048, 1024]⟩
abbrev S8x1024x2048 : Shape := ⟨3, ![8, 1024, 2048]⟩
abbrev S1x512x2048 : Shape := ⟨3, ![1, 512, 2048]⟩
abbrev S1x2048x1024 : Shape := ⟨3, ![1, 2048, 1024]⟩
abbrev S1x1024x2048 : Shape := ⟨3, ![1, 1024, 2048]⟩
abbrev S512x2048 : Shape := ⟨2, ![512, 2048]⟩
abbrev S2048x1024 : Shape := ⟨2, ![2048, 1024]⟩
abbrev S1024x2048 : Shape := ⟨2, ![1024, 2048]⟩
abbrev S512x1024 : Shape := ⟨2, ![512, 1024]⟩

abbrev nBuf : Space → Nat
  | .hbm => 9
  | .vmem => 7
  | .smem => 0
  | _ => 0

abbrev bufTy : (tb : Table) → Fin (tcTables nBuf tb) → BufTy
  | .hbm, ⟨0, _⟩ => ⟨S8x4096x2048, .f32⟩
  | .hbm, ⟨1, _⟩ => ⟨S8x2048x1024, .f32⟩
  | .hbm, ⟨2, _⟩ => ⟨S8x1024x2048, .f32⟩
  | .hbm, ⟨3, _⟩ => ⟨S8x2048x1024, .f32⟩
  | .hbm, ⟨4, _⟩ => ⟨S8x4096x2048, .bf16⟩
  | .hbm, ⟨5, _⟩ => ⟨S8x2048x1024, .bf16⟩
  | .hbm, ⟨6, _⟩ => ⟨S8x1024x2048, .bf16⟩
  | .hbm, ⟨7, _⟩ => ⟨S8x2048x1024, .bf16⟩
  | .hbm, ⟨8, _⟩ => ⟨S8x4096x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x2048, .bf16⟩
  | .local _ .vmem, ⟨5, _⟩ => ⟨S1x512x2048, .f32⟩
  | .local _ .vmem, ⟨6, _⟩ => ⟨S1x512x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S512x2048_S1x512x2048 : S512x2048.ShapeCasts S1x512x2048
  dot_S512x2048_S2048x1024_S512x1024_1_0_0_1_n_n_wf : DotDims.WF S512x2048 S2048x1024 S512x1024 [1] [0] [0] [1] [] []
  dot_S512x1024_S1024x2048_S512x2048_1_0_0_1_n_n_wf : DotDims.WF S512x1024 S1024x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x4096x2048.size a
  hwx0_0 : ∀ i : grid0.Coords, EltTy.bits .bf16 = 32 ∨ (Rect.block (s := S8x4096x2048) S1x512x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S8x2048x1024.size a
  hwx0_1 : ∀ i : grid0.Coords, EltTy.bits .bf16 = 32 ∨ (Rect.block (s := S8x2048x1024) S1x2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S8x2048x1024.size a
  hwx0_2 : ∀ i : grid0.Coords, EltTy.bits .bf16 = 32 ∨ (Rect.block (s := S8x2048x1024) S1x2048x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024x2048.size a ≤ S8x1024x2048.size a
  hwx0_3 : ∀ i : grid0.Coords, EltTy.bits .bf16 = 32 ∨ (Rect.block (s := S8x1024x2048) S1x1024x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S8x4096x2048.size a
  hwx0_4 : ∀ i : grid0.Coords, EltTy.bits .f32 = 32 ∨ (Rect.block (s := S8x4096x2048) S1x512x2048.size (cc0_transform_4 i) (hinb0_4 i)).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_v0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096x2048 : Shape := ⟨3, ![8, 4096, 2048]⟩
abbrev S8x2048x1024 : Shape := ⟨3, ![8, 2048, 1024]⟩
abbrev S8x1024x2048 : Shape := ⟨3, ![8, 1024, 2048]⟩
abbrev S8x4096x1024 : Shape := ⟨3, ![8, 4096, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x2048x1024, .f32⟩
  | .hbm, ⟨2, _⟩ => ⟨S8x1024x2048, .f32⟩
  | .hbm, ⟨3, _⟩ => ⟨S8x2048x1024, .f32⟩
  | .hbm, ⟨4, _⟩ => ⟨S8x4096x1024, .f32⟩
  | .hbm, ⟨5, _⟩ => ⟨S8x4096x1024, .f32⟩
  | .hbm, ⟨6, _⟩ => ⟨S8x4096x1024, .f32⟩
  | .hbm, ⟨7, _⟩ => ⟨S_, .f32⟩
  | .hbm, ⟨8, _⟩ => ⟨S8x4096x1024, .f32⟩
  | .hbm, ⟨9, _⟩ => ⟨S8x4096x1024, .f32⟩
  | .hbm, ⟨10, _⟩ => ⟨S_, .f32⟩
  | .hbm, ⟨11, _⟩ => ⟨S8x4096x1024, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S8x4096x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S8x4096x1024 : S_.BroadcastsInDim S8x4096x1024 (![] : Fin 0 → Fin S8x4096x1024.rank)
  dot_S8x4096x2048_S8x2048x1024_S8x4096x1024_2_1_1_2_0_0_wf : DotDims.WF S8x4096x2048 S8x2048x1024 S8x4096x1024 [2] [1] [1] [2] [0] [0]
  dot_S8x4096x1024_S8x1024x2048_S8x4096x2048_2_1_1_2_0_0_wf : DotDims.WF S8x4096x1024 S8x1024x2048 S8x4096x2048 [2] [1] [1] [2] [0] [0]

variable [Facts₀]

def dot_S8x4096x2048_S8x2048x1024_S8x4096x1024_2_1_1_2_0_0 : DotDims S8x4096x2048 S8x2048x1024 S8x4096x1024 where
  lhsContracting := [2]
  rhsContracting := [1]
  lhsNonContracting := [1]
  rhsNonContracting := [2]
  lhsBatch := [0]
  rhsBatch := [0]
  wf := dot_S8x4096x2048_S8x2048x1024_S8x4096x1024_2_1_1_2_0_0_wf
def dot_S8x4096x1024_S8x1024x2048_S8x4096x2048_2_1_1_2_0_0 : DotDims S8x4096x1024 S8x1024x2048 S8x4096x2048 where
  lhsContracting := [2]
  rhsContracting := [1]
  lhsNonContracting := [1]
  rhsNonContracting := [2]
  lhsBatch := [0]
  rhsBatch := [0]
  wf := dot_S8x4096x1024_S8x1024x2048_S8x4096x2048_2_1_1_2_0_0_wf

class Facts : Prop extends Facts₀ where

variable [Facts]
-- ==== Proof.LibPlainDot.lean ====
/-
  General lemmas about a contraction of a matrix's columns with another matrix's rows, read at the
  extended reals, and about a sum along the rows of a matrix.

  * A dot whose dimension numbers contract axis 1 of an [M, K] operand with axis 0 of a [K, N] operand, with
    no batch axis, has at the output entry (p, q) the operand entries (p, k) and (k, q) at contraction
    position k, so its value there is the textbook sum over k of l (p, k) · r (k, q). This holds for every
    record with those dimension numbers, whatever its well-formedness proof.
  * The same for a kernel's matrix product into a zero accumulator and for the host's dot_general.
  * A sum of a [R, C] matrix along axis 1 at row p is the sum over k of the entries (p, k).
  * A vector made a column, [a] to [a, 1] (or to [a, 1, 1]), a column made a vector again, and a column repeated along
    the rows, [a, 1] to [a, b], each read at an entry.
-/
import Idealize.ShloMosaic.PureOps.Ideal.Laws
import Idealize.ShloMosaic.Lib.ValueIdx
import Idealize.ShloMosaic.Lib.ValueLayout

noncomputable section

namespace Idealize.ShloMosaic.PlainDot

open Idealize.ShloMosaic Idealize.ShloMosaic.ValueIdx
open scoped BigOperators

variable {M K N : Nat}

/-- The record with the dimension numbers of a plain matrix product, at any well-formedness proof. -/
abbrev mk (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) :=
  ⟨[1], [0], [0], [1], [], [], wf⟩

section
variable (wf : DotDims.WF (⟨2, ![M, K]⟩ : Shape) (⟨2, ![K, N]⟩ : Shape) (⟨2, ![M, N]⟩ : Shape) [1] [0] [0] [1] [] [])

theorem lhs0 (j : (⟨2, ![M, N]⟩ : Shape).Idx) (q : (mk wf).contr.Idx) : ((mk wf).lhsIdx j q 0).val = (j 0).val := by
  unfold DotDims.lhsIdx
  rw [dif_neg (show ¬(0 : Fin (⟨2, ![M, K]⟩ : Shape).rank) ∈ (mk wf).lhsBatch from List.not_mem_nil),
    dif_pos (show (0 : Fin (⟨2, ![M, K]⟩ : Shape).rank) ∈ (mk wf).lhsNonContracting from List.mem_singleton_self _)]
  rfl

theorem lhs1 (j : (⟨2, ![M, N]⟩ : Shape).Idx) (q : (mk wf).contr.Idx) : ((mk wf).lhsIdx j q 1).val = (q ⟨0, Nat.one_pos⟩).val :=
  (mk wf).lhsIdx_val_of_single rfl j q

theorem rhs0 (j : (⟨2, ![M, N]⟩ : Shape).Idx) (q : (mk wf).contr.Idx) : ((mk wf).rhsIdx j q 0).val = (q ⟨0, Nat.one_pos⟩).val :=
  (mk wf).rhsIdx_val_of_single rfl j q

theorem rhs1 (j : (⟨2, ![M, N]⟩ : Shape).Idx) (q : (mk wf).contr.Idx) : ((mk wf).rhsIdx j q 1).val = (j 1).val := by
  unfold DotDims.rhsIdx
  rw [dif_neg (show ¬(1 : Fin (⟨2, ![K, N]⟩ : Shape).rank) ∈ (mk wf).rhsBatch from List.not_mem_nil),
    dif_pos (show (1 : Fin (⟨2, ![K, N]⟩ : Shape).rank) ∈ (mk wf).rhsNonContracting from List.mem_singleton_self _)]
  rfl

/-- The contraction sum of a plain product at the entry (p, q): over k, the left entry (p, k) times the right entry (k, q). -/
theorem sum_mk {α : Type} [AddCommMonoid α] [Mul α] (l : (⟨2, ![M, K]⟩ : Shape).Idx → α) (r : (⟨2, ![K, N]⟩ : Shape).Idx → α)
    (p : Fin M) (q : Fin N) :
    ∑ k : (mk wf).contr.Idx, l ((mk wf).lhsIdx (ix2 p q) k) * r ((mk wf).rhsIdx (ix2 p q) k)
      = ∑ k : Fin K, l (ix2 p k) * r (ix2 k q) := by
  rw [← Equiv.sum_comp (contrEquiv1 (mk wf) K rfl rfl).symm]
  refine Finset.sum_congr rfl fun k _ => ?_
  have hk := contrEquiv1_symm_val (mk wf) K rfl rfl k
  have el : (mk wf).lhsIdx (ix2 p q) ((contrEquiv1 (mk wf) K rfl rfl).symm k) = ix2 p k := funext fun a => Fin.ext (by
    match a with
    | ⟨0, _⟩ => exact lhs0 wf _ _
    | ⟨1, _⟩ => exact (lhs1 wf _ _).trans hk)
  have er : (mk wf).rhsIdx (ix2 p q) ((contrEquiv1 (mk wf) K rfl rfl).symm k) = ix2 k q := funext fun a => Fin.ext (by
    match a with
    | ⟨0, _⟩ => exact (rhs0 wf _ _).trans hk
    | ⟨1, _⟩ => exact rhs1 wf _ _)
  rw [el, er]
end

/-- Every record whose dimension numbers are the plain product's is `mk` of its own well-formedness proof. -/
theorem sum_of_plain {α : Type} [AddCommMonoid α] [Mul α]
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → α) (r : (⟨2, ![K, N]⟩ : Shape).Idx → α) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  simp only at h1 h2 h3 h4 h5 h6
  subst h1 h2 h3 h4 h5 h6
  exact sum_mk wf l r p q

/-- A kernel's matrix product into the zero accumulator, at the entry (p, q). -/
theorem matmul_zero_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal (⟨2, ![M, K]⟩ : Shape) φ₁) (r : FVec Ideal (⟨2, ![K, N]⟩ : Shape) φ₂)
    (p : Fin M) (q : Fin N) :
    FloatOps.matmul D prec l r (constant (⟨2, ![M, N]⟩ : Shape) .f32 0x00000000#32) (ix2 p q)
      = ∑ k : Fin K, (l (ix2 p k) : EReal) * (r (ix2 k q) : EReal) :=
  (Ideal.matmul_constant_zero_apply D prec l r (ix2 p q)).trans
    (sum_of_plain (α := EReal) D h1 h2 h3 h4 h5 h6 l r p q)

/-- The host's dot_general of the same dimension numbers, at the entry (p, q). -/
theorem dotGeneral_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (sched : HostSchedule)
    (l : FVec Ideal (⟨2, ![M, K]⟩ : Shape) φ₁) (r : FVec Ideal (⟨2, ![K, N]⟩ : Shape) φ₂) (p : Fin M) (q : Fin N) :
    FloatOps.dotGeneral D prec sched l r (ix2 p q) = ∑ k : Fin K, (l (ix2 p k) : EReal) * (r (ix2 k q) : EReal) :=
  (Ideal.dotGeneral_apply D prec sched l r (ix2 p q)).trans
    (sum_of_plain (α := EReal) D h1 h2 h3 h4 h5 h6 l r p q)

/-- A kernel's sum of an [R, C] matrix along axis 1, at row p: the sum over k of the entries (p, k). -/
theorem rowSum_apply {R C : Nat} {φ : FTy} (src : FVec Ideal (⟨2, ![R, C]⟩ : Shape) φ) (acc : BitVec φ.bits)
    (h : Shape.Reduces (⟨2, ![R, C]⟩ : Shape) [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin C, (src (ix2 p k) : EReal) := by
  refine (Ideal.multiReduction_add_single src acc h hφ hacc (ix1 p)).trans ?_
  refine Finset.sum_congr rfl fun k _ => congrArg src ?_
  funext a
  exact Fin.ext (by match a with | ⟨0, _⟩ => rfl | ⟨1, _⟩ => rfl)

/-- An `[a]` vector cast to the column `[a, 1]` reads, at `(i, 0)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast along the rows to `[a, b]` reads, at `(p, c)`, the operand at `(p, 0)`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` cast to the vector `[a]` reads, at `i`, the operand at `(i, 0)`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` vector cast to `[a, 1, 1]` reads, at `(i, 0, 0)`, the operand at `i`. -/
theorem shapeCast_a_a11_apply {α : Type} {a : ℕ} (x : (⟨1, ![a]⟩ : Shape).Idx → α) (h : (⟨1, ![a]⟩ : Shape).ShapeCasts ⟨3, ![a, 1, 1]⟩)
    (i : Fin a) (u w : Fin 1) : shapeCast ⟨3, ![a, 1, 1]⟩ x h (ix3 i u w) = x (ix1 i) :=
  shapeCast_apply x h _ _ (by
    have hu : u.val = 0 := by omega
    have hw : w.val = 0 := by omega
    rw [Shape.rowMajor_val_three, Shape.rowMajor_val_one]
    show i.val = (i.val * 1 + u.val) * 1 + w.val
    omega)

end Idealize.ShloMosaic.PlainDot

end
-- ==== Proof.SwiGLU.lean ====
/-
  The function that both programs compute, on the extended reals.

  There are 8 experts; expert e has 4096 tokens x (e, t, ·) of width 2048, two up-projection matrices
  w1 (e, ·, ·) and w3 (e, ·, ·) of shape 2048 × 1024 and a down-projection w2 (e, ·, ·) of shape 1024 × 2048.
  For a token t and a hidden unit h the up-projection through a matrix w is

      up w (e, t, h) = Σ_k x (e, t, k) · w (e, k, h),

  the gated hidden value is

      gated (e, t, h) = (up w1 · σ (up w1)) · up w3,      σ s = 1 / (1 + e^(-s)),

  with the products taken in this order, and the result is

      out (e, t, d) = Σ_h gated (e, t, h) · w2 (e, h, d).

  The logistic function σ here is the one of the ideal instance: its value at an extended real is the quotient
  of one by one plus the exponential of the negated argument, with that instance's conventions at the infinities.
-/
import Idealize.ShloMosaic.PureOps.Ideal
import Idealize.ShloMosaic.Lib.ValueIdx

noncomputable section

open scoped BigOperators

namespace SwiGLU

open Idealize.ShloMosaic Idealize.ShloMosaic.ValueIdx

/-- The tokens of all experts, and also the result: expert, token, feature. -/
abbrev Tok : Shape := ⟨3, ![8, 4096, 2048]⟩
/-- An up-projection: expert, feature, hidden unit. -/
abbrev UpW : Shape := ⟨3, ![8, 2048, 1024]⟩
/-- The down-projection: expert, hidden unit, feature. -/
abbrev DownW : Shape := ⟨3, ![8, 1024, 2048]⟩

/-- A token's up-projection onto one hidden unit: the sum over the 2048 features. -/
def up (x : Tok.Idx → EReal) (w : UpW.Idx → EReal) (e : Fin 8) (t : Fin 4096) (h : Fin 1024) : EReal :=
  ∑ k : Fin 2048, x (ix3 e t k) * w (ix3 e k h)

/-- The gated hidden value: the first up-projection times its logistic, times the second up-projection. -/
def gated (x : Tok.Idx → EReal) (w1 w3 : UpW.Idx → EReal) (e : Fin 8) (t : Fin 4096) (h : Fin 1024) : EReal :=
  up x w1 e t h * Ideal.logistic (up x w1 e t h) * up x w3 e t h

/-- The result at expert `e`, token `t`, feature `d`: the gated hidden values of the token against column `d` of
    the expert's down-projection, summed over the 1024 hidden units. -/
def out (x : Tok.Idx → EReal) (w1 : UpW.Idx → EReal) (w2 : DownW.Idx → EReal) (w3 : UpW.Idx → EReal) : Tok.Idx → EReal :=
  fun i => ∑ h : Fin 1024, gated x w1 w3 (i 0) (i 1) h * w2 (ix3 (i 0) h (i 2))

/-- The result at an index given by its coordinates. -/
theorem out_ix3 (x : Tok.Idx → EReal) (w1 : UpW.Idx → EReal) (w2 : DownW.Idx → EReal) (w3 : UpW.Idx → EReal)
    (e : Fin 8) (t : Fin 4096) (d : Fin 2048) :
    out x w1 w2 w3 (ix3 e t d) = ∑ h : Fin 1024, gated x w1 w3 e t h * w2 (ix3 e h d) := rfl

end SwiGLU

end
-- ==== Proof.BlockValue.lean ====
/-
  One grid point's work, read at an entry.

  At a grid point the kernel holds four blocks: 512 tokens of one expert (a [1, 512, 2048] block), that expert's two
  up-projections ([1, 2048, 1024] each) and its down-projection ([1, 1024, 2048]). It multiplies the token block by
  each up-projection, gates the first product by its logistic and by the second product, and multiplies the gated
  block by the down-projection. Entry (p, q) of what it stores is therefore

      Σ_h (u1 (p, h) · σ (u1 (p, h)) · u3 (p, h)) · w2 (h, q),     u (p, h) = Σ_k x (p, k) · w (k, h),

  each matrix product read as its textbook sum, the changes of float format the identity on the extended reals, and
  the leading unit axis of every block dropped or added by a shape cast that keeps the other two coordinates.
-/
import proofs.«144317_j1992864825973_1_alg».proof.Proof.Gen.KernelIdeal.Skeleton
import proofs.«144317_j1992864825973_1_alg».proof.Proof.LibPlainDot
import proofs.«144317_j1992864825973_1_alg».proof.Proof.SwiGLU
import Idealize.ShloMosaic.Lib.ValueLayout

noncomputable section

open scoped BigOperators

namespace Cert.KernelIdeal.Block

open Cert.KernelIdeal Cert.KernelIdeal.Gen Idealize.ShloMosaic Idealize.ShloMosaic.ValueIdx

/-- Row `p` of the token block against column `h` of an up-projection block. -/
def upB (xb : Vec Ideal S1x512x2048 .bf16) (wb : Vec Ideal S1x2048x1024 .bf16) (p : Fin 512) (h : Fin 1024) : EReal :=
  ∑ k : Fin 2048, xb (ix3 (0 : Fin 1) p k) * wb (ix3 (0 : Fin 1) k h)

/-- The logistic of a block at an entry is the logistic of the entry. -/
theorem logistic_apply {s : Shape} {φ : FTy} (a : FVec Ideal s φ) (i : s.Idx) :
    logistic a i = Ideal.logistic (a i) := rfl

/-- The product of the token block with an up-projection block, both with their unit axis dropped, into a zero
    accumulator: at (p, h) it is `upB`. -/
theorem up_entry (xb : Vec Ideal S1x512x2048 .bf16) (wb : Vec Ideal S1x2048x1024 .bf16) (p : Fin 512) (h : Fin 1024) :
    matmul (F := Ideal) dot_S512x2048_S2048x1024_S512x1024_1_0_0_1_n_n none
        (shapeCast S512x2048 xb shapeCasts_S1x512x2048_S512x2048 : FVec Ideal S512x2048 .bf16)
        (shapeCast S2048x1024 wb shapeCasts_S1x2048x1024_S2048x1024 : FVec Ideal S2048x1024 .bf16)
        (constant S512x1024 .f32 0x00000000#32) (ix2 p h)
      = upB xb wb p h := by
  refine (PlainDot.matmul_zero_apply _ rfl rfl rfl rfl rfl rfl none _ _ p h).trans ?_
  unfold upB
  refine Finset.sum_congr rfl fun k _ => ?_
  rw [shapeCast_1ab_ab_apply, shapeCast_1ab_ab_apply]

/-- What the point stores, at row `p` and feature `q` of its block: the gated hidden values of token `p` against
    column `q` of the down-projection block, summed over the hidden units. -/
theorem pay_entry (xb : Vec Ideal S1x512x2048 .bf16) (w1b w3b : Vec Ideal S1x2048x1024 .bf16)
    (w2b : Vec Ideal S1x1024x2048 .bf16) (u : Fin 1) (p : Fin 512) (q : Fin 2048) :
    k0_pay1 (F := Ideal) xb w1b w3b w2b (ix3 u p q)
      = ∑ h : Fin 1024, (upB xb w1b p h * Ideal.logistic (upB xb w1b p h) * upB xb w3b p h)
          * w2b (ix3 (0 : Fin 1) h q) := by
  unfold k0_pay1
  rw [shapeCast_ab_1ab_apply]
  refine (PlainDot.matmul_zero_apply _ rfl rfl rfl rfl rfl rfl none _ _ p q).trans ?_
  refine Finset.sum_congr rfl fun h _ => ?_
  rw [shapeCast_1ab_ab_apply, truncf_apply, mulf_apply, mulf_apply, logistic_apply, up_entry, up_entry]

/-- A point whose blocks are rows of the arrays computes rows of the result. If row `p` of the token block is token
    `t` of expert `e`, and the three weight blocks are that expert's matrices, then entry (p, q) of what the point
    stores is the result at expert `e`, token `t`, feature `q`: the sums over the features and over the hidden
    units are the same sums, term by term. -/
theorem pay_eq_out (xb : Vec Ideal S1x512x2048 .bf16) (w1b w3b : Vec Ideal S1x2048x1024 .bf16)
    (w2b : Vec Ideal S1x1024x2048 .bf16)
    (X : SwiGLU.Tok.Idx → EReal) (W1 : SwiGLU.UpW.Idx → EReal) (W2 : SwiGLU.DownW.Idx → EReal) (W3 : SwiGLU.UpW.Idx → EReal)
    (e : Fin 8) (t : Fin 4096) (u : Fin 1) (p : Fin 512) (q : Fin 2048)
    (hx : ∀ k : Fin 2048, xb (ix3 (0 : Fin 1) p k) = X (ix3 e t k))
    (h1 : ∀ (k : Fin 2048) (h : Fin 1024), w1b (ix3 (0 : Fin 1) k h) = W1 (ix3 e k h))
    (h3 : ∀ (k : Fin 2048) (h : Fin 1024), w3b (ix3 (0 : Fin 1) k h) = W3 (ix3 e k h))
    (h2 : ∀ (h : Fin 1024) (d : Fin 2048), w2b (ix3 (0 : Fin 1) h d) = W2 (ix3 e h d)) :
    k0_pay1 (F := Ideal) xb w1b w3b w2b (ix3 u p q) = SwiGLU.out X W1 W2 W3 (ix3 e t q) := by
  have up1 : ∀ h : Fin 1024, upB xb w1b p h = SwiGLU.up X W1 e t h := fun h =>
    Finset.sum_congr rfl fun k _ => by rw [hx k, h1 k h]
  have up3 : ∀ h : Fin 1024, upB xb w3b p h = SwiGLU.up X W3 e t h := fun h =>
    Finset.sum_congr rfl fun k _ => by rw [hx k, h3 k h]
  rw [pay_entry, SwiGLU.out_ix3]
  refine Finset.sum_congr rfl fun h _ => ?_
  rw [up1 h, up3 h, h2 h q]
  rfl

end Cert.KernelIdeal.Block

end
-- ==== Proof.ArrayValue.lean ====
/-
  From the grid points' blocks to the whole result array.

  The grid has 8 × 8 points; point (e, j) holds tokens 512 j … 512 j + 511 of expert e, that expert's three weight
  matrices whole, and writes rows 512 j … 512 j + 511 of expert e of the result. The arrays the region reads are the
  arguments converted to a narrower float format, which on the extended reals is the identity, so they are the
  arguments. Hence each written block is the corresponding block of `SwiGLU.out` of the arguments; the 64 blocks
  cover the result array, every (expert, token) pair lying in exactly the block of point (e, token / 512); so after the
  run the result array is `SwiGLU.out` of the arguments.
-/
import proofs.«144317_j1992864825973_1_alg».proof.Proof.Gen.KernelIdeal.Value
import proofs.«144317_j1992864825973_1_alg».proof.Proof.BlockValue
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Idealize.ShloMosaic.ValueIdx

variable (m : (ℓ : Loc nD τ sig) → Buf (Elt Ideal) ℓ) (ρ : Dev nD → PrngReg)

theorem hz : (![0, 0, 0] : Fin 3 → Nat) = fun _ => 0 := funext fun a => by fin_cases a <;> rfl

/-- The result the kernel is to leave on core `c`: `SwiGLU.out` of the four argument arrays as launched. -/
abbrev result (c : Dev nD) : S8x4096x2048.Idx → EReal :=
  SwiGLU.out (m ((c : Thread nD τ).loc main_arg0)) (m ((c : Thread nD τ).loc main_arg1))
    (m ((c : Thread nD τ).loc main_arg2)) (m ((c : Thread nD τ).loc main_arg3))

/-! ## The arrays the region reads are the arguments -/

theorem entry_x (c : Dev nD) : (V m c main_v0 : S8x4096x2048.Idx → EReal) = m ((c : Thread nD τ).loc main_arg0) := by
  dsimp only [Gen.V, Gen.hostOps0]; after_results; rfl
theorem entry_w1 (c : Dev nD) : (V m c main_v1 : S8x2048x1024.Idx → EReal) = m ((c : Thread nD τ).loc main_arg1) := by
  dsimp only [Gen.V, Gen.hostOps0]; after_results; rfl
theorem entry_w2 (c : Dev nD) : (V m c main_v2 : S8x1024x2048.Idx → EReal) = m ((c : Thread nD τ).loc main_arg2) := by
  dsimp only [Gen.V, Gen.hostOps0]; after_results; rfl
theorem entry_w3 (c : Dev nD) : (V m c main_v3 : S8x2048x1024.Idx → EReal) = m ((c : Thread nD τ).loc main_arg3) := by
  dsimp only [Gen.V, Gen.hostOps0]; after_results; rfl

/-! ## The index maps, decided over the 64 points -/

/-- The token window moves with the result window; the three weight windows follow its expert coordinate and stay
    at block zero on the other two axes; the result window's last block index is zero. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = 0 ∧ win0_3.index t (2 : Fin 3) = 0
    ∧ win0_4.index t (0 : Fin 3) ≤ 7 ∧ win0_4.index t (1 : Fin 3) ≤ 7 ∧ win0_4.index t (2 : Fin 3) = 0 :=
  (by decide +kernel : ∀ t : Fin grid0.N, _)

/-- Every (expert, token tile) pair is some point's. -/
theorem idx_onto : ∀ (e : Fin 8) (j : Fin 8), ∃ t : Fin cfg0.N, win0_4.index t = ![e.val, j.val, 0] :=
  (by decide +kernel : ∀ (e : Fin 8) (j : Fin 8), ∃ t : Fin grid0.N, win0_4.index t = ![e.val, j.val, 0])

/-! ## The blocks are rows of the arguments -/

/-- The token block at point `t`, at an entry: the argument at the expert of the point and at the token the point's
    tile offsets the row to. -/
theorem xblk_apply (c : Dev nD) (t : Fin cfg0.N) (y : S1x512x2048.Idx) (i : S8x4096x2048.Idx)
    (h0 : (i 0).val = win0_0.index t (0 : Fin 3) * 1 + 1 * (y 0).val)
    (h1 : (i 1).val = win0_0.index t (1 : Fin 3) * 512 + 1 * (y 1).val)
    (h2 : (i 2).val = win0_0.index t (2 : Fin 3) * 2048 + 1 * (y 2).val) :
    (iblk m c 0 t : Vec Ideal S1x512x2048 .bf16) y = m ((c : Thread nD τ).loc main_arg0) i := by
  unfold iblk
  rw [View.read_apply]
  show V m c main_v0 _ = _
  rw [entry_x]
  congr 1
  funext a
  apply Fin.ext
  match a with
  | ⟨0, _⟩ => exact h0.symm
  | ⟨1, _⟩ => exact h1.symm
  | ⟨2, _⟩ => exact h2.symm

/-- The first up-projection's block at point `t`, at an entry. -/
theorem w1blk_apply (c : Dev nD) (t : Fin cfg0.N) (y : S1x2048x1024.Idx) (i : S8x2048x1024.Idx)
    (h0 : (i 0).val = win0_1.index t (0 : Fin 3) * 1 + 1 * (y 0).val)
    (h1 : (i 1).val = win0_1.index t (1 : Fin 3) * 2048 + 1 * (y 1).val)
    (h2 : (i 2).val = win0_1.index t (2 : Fin 3) * 1024 + 1 * (y 2).val) :
    (iblk m c 1 t : Vec Ideal S1x2048x1024 .bf16) y = m ((c : Thread nD τ).loc main_arg1) i := by
  unfold iblk
  rw [View.read_apply]
  show V m c main_v1 _ = _
  rw [entry_w1]
  congr 1
  funext a
  apply Fin.ext
  match a with
  | ⟨0, _⟩ => exact h0.symm
  | ⟨1, _⟩ => exact h1.symm
  | ⟨2, _⟩ => exact h2.symm

/-- The second up-projection's block at point `t`, at an entry. -/
theorem w3blk_apply (c : Dev nD) (t : Fin cfg0.N) (y : S1x2048x1024.Idx) (i : S8x2048x1024.Idx)
    (h0 : (i 0).val = win0_2.index t (0 : Fin 3) * 1 + 1 * (y 0).val)
    (h1 : (i 1).val = win0_2.index t (1 : Fin 3) * 2048 + 1 * (y 1).val)
    (h2 : (i 2).val = win0_2.index t (2 : Fin 3) * 1024 + 1 * (y 2).val) :
    (iblk m c 2 t : Vec Ideal S1x2048x1024 .bf16) y = m ((c : Thread nD τ).loc main_arg3) i := by
  unfold iblk
  rw [View.read_apply]
  show V m c main_v3 _ = _
  rw [entry_w3]
  congr 1
  funext a
  apply Fin.ext
  match a with
  | ⟨0, _⟩ => exact h0.symm
  | ⟨1, _⟩ => exact h1.symm
  | ⟨2, _⟩ => exact h2.symm

/-- The down-projection's block at point `t`, at an entry. -/
theorem w2blk_apply (c : Dev nD) (t : Fin cfg0.N) (y : S1x1024x2048.Idx) (i : S8x1024x2048.Idx)
    (h0 : (i 0).val = win0_3.index t (0 : Fin 3) * 1 + 1 * (y 0).val)
    (h1 : (i 1).val = win0_3.index t (1 : Fin 3) * 1024 + 1 * (y 1).val)
    (h2 : (i 2).val = win0_3.index t (2 : Fin 3) * 2048 + 1 * (y 2).val) :
    (iblk m c 3 t : Vec Ideal S1x1024x2048 .bf16) y = m ((c : Thread nD τ).loc main_arg2) i := by
  unfold iblk
  rw [View.read_apply]
  show V m c main_v2 _ = _
  rw [entry_w2]
  congr 1
  funext a
  apply Fin.ext
  match a with
  | ⟨0, _⟩ => exact h0.symm
  | ⟨1, _⟩ => exact h1.symm
  | ⟨2, _⟩ => exact h2.symm

/-! ## What a point writes back -/

/-- Point `t` writes back block `t` of the result: its token rows are the tokens of its expert at its tile, its
    weight blocks that expert's matrices, so `Block.pay_eq_out` applies at every entry. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero hz]
  simp only [View.ld_unit_zero (S := S1x512x2048) hz, View.ld_unit_zero (S := S1x2048x1024) hz,
    View.ld_unit_zero (S := S1x1024x2048) hz]
  obtain ⟨a0, a1, a2, b0, b1, b2, c0, c1, c2, d0, d1, d2, e0, e1, e2⟩ := idx_facts t
  funext y
  obtain ⟨u, p, q, rfl⟩ : ∃ (u : Fin 1) (p : Fin 512) (q : Fin 2048), y = ix3 u p q := ⟨y 0, y 1, y 2, eq_ix3 y⟩
  have hu : u.val = 0 := by omega
  have hp : p.val < 512 := p.isLt
  obtain ⟨E, hE⟩ : ∃ E : Fin 8, E.val = win0_4.index t (0 : Fin 3) := ⟨⟨win0_4.index t (0 : Fin 3), by omega⟩, rfl⟩
  obtain ⟨T, hT⟩ : ∃ T : Fin 4096, T.val = win0_4.index t (1 : Fin 3) * 512 + p.val :=
    ⟨⟨win0_4.index t (1 : Fin 3) * 512 + p.val, by omega⟩, rfl⟩
  have hemb : ((cfg0.win 4).blk t).view.emb (ix3 u p q) = ix3 E T q := by
    funext a
    apply Fin.ext
    match a with
    | ⟨0, _⟩ => show win0_4.index t (0 : Fin 3) * 1 + 1 * u.val = E.val; omega
    | ⟨1, _⟩ => show win0_4.index t (1 : Fin 3) * 512 + 1 * p.val = T.val; omega
    | ⟨2, _⟩ => show win0_4.index t (2 : Fin 3) * 2048 + 1 * q.val = q.val; omega
  show k0_pay1 (iblk m c 0 t) (iblk m c 1 t) (iblk m c 2 t) (iblk m c 3 t) (ix3 u p q)
      = result m c (((cfg0.win 4).blk t).view.emb (ix3 u p q))
  rw [hemb]
  exact Block.pay_eq_out (iblk m c 0 t) (iblk m c 1 t) (iblk m c 2 t) (iblk m c 3 t)
    (m ((c : Thread nD τ).loc main_arg0)) (m ((c : Thread nD τ).loc main_arg1))
    (m ((c : Thread nD τ).loc main_arg2)) (m ((c : Thread nD τ).loc main_arg3)) E T u p q
    (fun k => xblk_apply m c t (ix3 (0 : Fin 1) p k) (ix3 E T k)
      (by show E.val = win0_0.index t (0 : Fin 3) * 1 + 1 * 0; omega)
      (by show T.val = win0_0.index t (1 : Fin 3) * 512 + 1 * p.val; omega)
      (by show k.val = win0_0.index t (2 : Fin 3) * 2048 + 1 * k.val; omega))
    (fun k h => w1blk_apply m c t (ix3 (0 : Fin 1) k h) (ix3 E k h)
      (by show E.val = win0_1.index t (0 : Fin 3) * 1 + 1 * 0; omega)
      (by show k.val = win0_1.index t (1 : Fin 3) * 2048 + 1 * k.val; omega)
      (by show h.val = win0_1.index t (2 : Fin 3) * 1024 + 1 * h.val; omega))
    (fun k h => w3blk_apply m c t (ix3 (0 : Fin 1) k h) (ix3 E k h)
      (by show E.val = win0_2.index t (0 : Fin 3) * 1 + 1 * 0; omega)
      (by show k.val = win0_2.index t (1 : Fin 3) * 2048 + 1 * k.val; omega)
      (by show h.val = win0_2.index t (2 : Fin 3) * 1024 + 1 * h.val; omega))
    (fun h d => w2blk_apply m c t (ix3 (0 : Fin 1) h d) (ix3 E h d)
      (by show E.val = win0_3.index t (0 : Fin 3) * 1 + 1 * 0; omega)
      (by show h.val = win0_3.index t (1 : Fin 3) * 1024 + 1 * h.val; omega)
      (by show d.val = win0_3.index t (2 : Fin 3) * 2048 + 1 * d.val; omega))

/-! ## The blocks cover the result array -/

/-- An index of the result array is in point `t`'s block iff each coordinate is in the block's range on its axis. -/
theorem mem_blk (t : Fin cfg0.N) (i : S8x4096x2048.Idx) :
    i ∈ ((cfg0.win 4).blk t).view.set ↔ ∀ a : Fin 3, win0_4.index t a * S1x512x2048.size a ≤ (i a).val
      ∧ (i a).val < win0_4.index t a * S1x512x2048.size a + S1x512x2048.size a := by
  show i ∈ ((View.whole main_v4).slice (win0_4.rect t)).set ↔ _
  rw [View.set_slice_whole, Rect.mem_set_unit]
  exact Iff.rfl

/-- Every index of the result array lies in the block of the point at its expert and at its token's tile. -/
theorem cover (i : S8x4096x2048.Idx) :
    ∃ t : Fin cfg0.N, (cfg0.win 4).flush t = true ∧ i ∈ ((cfg0.win 4).blk t).view.set := by
  have hi0 : (i 0).val < 8 := (i 0).isLt
  have hi1 : (i 1).val < 4096 := (i 1).isLt
  have hi2 : (i 2).val < 2048 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 512 ≤ (i 1).val ∧ (i 1).val < win0_4.index t (1 : Fin 3) * 512 + 512
    omega
  | ⟨2, _⟩ =>
    show win0_4.index t (2 : Fin 3) * 2048 ≤ (i 2).val ∧ (i 2).val < win0_4.index t (2 : Fin 3) * 2048 + 2048
    omega

/-! ## The array after the run, and the run -/

/-- After the last point the result array is `SwiGLU.out` of the arguments: every block written is a block of it,
    and the blocks cover the array. -/
theorem final (c : Dev nD) : (dats m 0 c).arrAt 4 cfg0.N = result m c :=
  (dats m 0 c).arrAt_eq_of_cover 4 (result m c) (fun t _ => flushed_eq m c t) cover

/-- The kernel's run: every weakly fair execution ends with the result array at `SwiGLU.out` of the arguments and
    the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.KernelIdeal.Whole

end
-- ==== Proof.RefValue.lean ====
/-
  The reference program's result is the function `SwiGLU.out` of its four arguments.

  The reference computes, over whole arrays and batched over the experts, the first up-projection, its product with
  1 / (1 + e^(-s)) spelt as negate, exponential, add and divide, the second up-projection, the product of the two,
  and the down-projection. At an index each batched product is the textbook sum over the contracted axis at the same
  expert; the quotient of one by one plus the exponential of the negated value is the logistic function of the
  ideal instance by that function's definition; and the products are taken in the order in which `SwiGLU.gated`
  takes them. So the two agree term by term, with no rearrangement.
-/
import proofs.«144317_j1992864825973_1_alg».proof.Proof.Gen.ReferenceIdeal.Read
import proofs.«144317_j1992864825973_1_alg».proof.Proof.SwiGLU
import Idealize.ShloMosaic.Lib.IdealHost

noncomputable section

open scoped BigOperators

namespace Cert.ReferenceIdeal.Whole

open Cert.ReferenceIdeal Cert.ReferenceIdeal.Read Idealize.ShloMosaic Idealize.ShloMosaic.ValueIdx

/-! ## The operand indices of the three batched products, by coordinates -/

theorem lidx_up1 (e : Fin 8) (t : Fin 4096) (h : Fin 1024) (k : Fin 2048) : lidx_main_v0 (ix3 e t h) k = ix3 e t k :=
  funext fun a => Fin.ext (by match a with | ⟨0, _⟩ => rfl | ⟨1, _⟩ => rfl | ⟨2, _⟩ => rfl)
theorem ridx_up1 (e : Fin 8) (t : Fin 4096) (h : Fin 1024) (k : Fin 2048) : ridx_main_v0 (ix3 e t h) k = ix3 e k h :=
  funext fun a => Fin.ext (by match a with | ⟨0, _⟩ => rfl | ⟨1, _⟩ => rfl | ⟨2, _⟩ => rfl)
theorem lidx_up3 (e : Fin 8) (t : Fin 4096) (h : Fin 1024) (k : Fin 2048) : lidx_main_v2 (ix3 e t h) k = ix3 e t k :=
  funext fun a => Fin.ext (by match a with | ⟨0, _⟩ => rfl | ⟨1, _⟩ => rfl | ⟨2, _⟩ => rfl)
theorem ridx_up3 (e : Fin 8) (t : Fin 4096) (h : Fin 1024) (k : Fin 2048) : ridx_main_v2 (ix3 e t h) k = ix3 e k h :=
  funext fun a => Fin.ext (by match a with | ⟨0, _⟩ => rfl | ⟨1, _⟩ => rfl | ⟨2, _⟩ => rfl)
theorem lidx_down (e : Fin 8) (t : Fin 4096) (d : Fin 2048) (h : Fin 1024) : lidx_main_v4 (ix3 e t d) h = ix3 e t h :=
  funext fun a => Fin.ext (by match a with | ⟨0, _⟩ => rfl | ⟨1, _⟩ => rfl | ⟨2, _⟩ => rfl)
theorem ridx_down (e : Fin 8) (t : Fin 4096) (d : Fin 2048) (h : Fin 1024) : ridx_main_v4 (ix3 e t d) h = ix3 e h d :=
  funext fun a => Fin.ext (by match a with | ⟨0, _⟩ => rfl | ⟨1, _⟩ => rfl | ⟨2, _⟩ => rfl)

/-! ## The stages -/

variable (x : (⟨S8x4096x2048, .f32⟩ : BufTy).Contents (Elt Ideal)) (w1 w3 : (⟨S8x2048x1024, .f32⟩ : BufTy).Contents (Elt Ideal))
  (w2 : (⟨S8x1024x2048, .f32⟩ : BufTy).Contents (Elt Ideal))

/-- The first batched product is the up-projection through `w1`. -/
theorem up1_eq (e : Fin 8) (t : Fin 4096) (h : Fin 1024) :
    val_main_v0 (F := Ideal) x w1 (ix3 e t h) = SwiGLU.up x w1 e t h := by
  rw [val_main_v0_apply]
  exact Finset.sum_congr rfl fun k _ => by rw [lidx_up1, ridx_up1]

/-- The second batched product is the up-projection through `w3`. -/
theorem up3_eq (e : Fin 8) (t : Fin 4096) (h : Fin 1024) :
    val_main_v2 (F := Ideal) x w3 (ix3 e t h) = SwiGLU.up x w3 e t h := by
  rw [val_main_v2_apply]
  exact Finset.sum_congr rfl fun k _ => by rw [lidx_up3, ridx_up3]

/-- The called function's result: its argument times the logistic of its argument. The literal one is the
    extended real one, and one divided by one plus the exponential of the negated value is the logistic by
    definition. -/
theorem silu_eq (i : S8x4096x1024.Idx) :
    val_main_v1 (F := Ideal) x w1 i = val_main_v0 (F := Ideal) x w1 i * Ideal.logistic (val_main_v0 (F := Ideal) x w1 i) := by
  rw [val_main_v1_apply, val_main_call0_v5_apply, val_main_call0_v4_apply, val_main_call0_cst_0_apply,
    val_main_call0_v3_apply, val_main_call0_v2_apply, val_main_call0_cst_apply, val_main_call0_v1_apply,
    val_main_call0_v0_apply]
  simp only [Ideal.mulf_def, Ideal.hostDivf_def, Ideal.addf_def, Ideal.hostUnary_exp_def, Ideal.hostNegf_def,
    Ideal.negf_def, Ideal.ofBits_def, Ideal.ofBits_one_f32]
  rfl

/-- The product of the gated first projection with the second is the gated hidden value. -/
theorem gated_eq (e : Fin 8) (t : Fin 4096) (h : Fin 1024) :
    val_main_v3 (F := Ideal) x w1 w3 (ix3 e t h) = SwiGLU.gated x w1 w3 e t h := by
  rw [val_main_v3_apply, silu_eq, up1_eq, up3_eq]
  rfl

/-- The last stage, the down-projection, is the result. -/
theorem result_eq : val_main_v4 (F := Ideal) x w1 w2 w3 = SwiGLU.out x w1 w2 w3 := by
  funext i
  obtain ⟨e, t, d, rfl⟩ : ∃ (e : Fin 8) (t : Fin 4096) (d : Fin 2048), i = ix3 e t d := ⟨i 0, i 1, i 2, eq_ix3 i⟩
  rw [val_main_v4_apply, SwiGLU.out_ix3]
  refine Finset.sum_congr rfl fun h _ => ?_
  rw [lidx_down, ridx_down, gated_eq]

end Cert.ReferenceIdeal.Whole

end
-- ==== Proof.lean ====
/-
  A gated feed-forward layer over 8 experts, each with 4096 tokens of width 2048 and hidden width 1024: the kernel
  against its whole-array reference, on the extended reals.

  Both programs compute, for expert e, token t and feature d,

      out (e, t, d) = Σ_h (u1 · σ (u1) · u3) (e, t, h) · w2 (e, h, d),     u_j (e, t, h) = Σ_k x (e, t, k) · w_j (e, k, h),

  σ the logistic function (`SwiGLU.out`, Proof/SwiGLU.lean).

  The kernel runs a grid of 8 × 8 points. Point (e, j) takes 512 tokens of expert e and that expert's three
  matrices, forms the two up-projections as matrix products, gates the first by its logistic and by the second, and
  multiplies by the down-projection. The narrower float format it feeds the products with is the identity on the
  extended reals, and each product into a zero accumulator is its textbook sum, so an entry of the stored block is the
  formula above (Proof/BlockValue.lean); the 64 blocks tile the result array (Proof/ArrayValue.lean).

  The reference computes the same three batched products over whole arrays and spells the logistic as one divided by
  one plus the exponential of the negated value, which is the ideal instance's logistic by definition
  (Proof/RefValue.lean). The products and sums are taken in the same order on both sides, so no algebraic law beyond
  this reading is needed, and the finiteness of the inputs is not used.

  The kernel's idealization rewrote nothing, so the sanctioned-idealization claim is trivial; the two kernel frames
  are the generated ones, and the reference's frame is its generated run with the result dropped.
-/
import proofs.«144317_j1992864825973_1_alg».proof.Defs
import proofs.«144317_j1992864825973_1_alg».proof.Proof.Gen.Kernel
import proofs.«144317_j1992864825973_1_alg».proof.Proof.Gen.Kernel.Skeleton
import proofs.«144317_j1992864825973_1_alg».proof.Proof.Gen.Kernel.Launch
import proofs.«144317_j1992864825973_1_alg».proof.Proof.Gen.Kernel.Points
import proofs.«144317_j1992864825973_1_alg».proof.Proof.Gen.Kernel.Frame
import proofs.«144317_j1992864825973_1_alg».proof.Proof.Gen.KernelIdeal
import proofs.«144317_j1992864825973_1_alg».proof.Proof.Gen.KernelIdeal.Skeleton
import proofs.«144317_j1992864825973_1_alg».proof.Proof.Gen.KernelIdeal.Launch
import proofs.«144317_j1992864825973_1_alg».proof.Proof.Gen.KernelIdeal.Points
import proofs.«144317_j1992864825973_1_alg».proof.Proof.Gen.KernelIdeal.Frame
import proofs.«144317_j1992864825973_1_alg».proof.Proof.Gen.ReferenceIdeal
import proofs.«144317_j1992864825973_1_alg».proof.Proof.Gen.Pre_finite_inputs
import proofs.«144317_j1992864825973_1_alg».proof.Proof.Gen.KernelIdeal.Value
import proofs.«144317_j1992864825973_1_alg».proof.Proof.Gen.ReferenceIdeal.Run
import proofs.«144317_j1992864825973_1_alg».proof.Proof.Gen.ReferenceIdeal.Read
import proofs.«144317_j1992864825973_1_alg».proof.Proof.ArrayValue
import proofs.«144317_j1992864825973_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments the kernel's result array ends at `SwiGLU.out` of its arguments
    (`Whole.run`) and the reference's at its last stage, which is `SwiGLU.out` of its own (`Whole.result_eq`): one
    function of equal arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.Whole.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
